-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x1024 .f32) (main_arg1 : IVec S16384 32) (main_arg2 : FVec F S1000x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg2
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 1000#32
  let main_v13 : IVec S16384 32 := broadcastInDim S16384 ![] bcast_S_S16384 main_c_4
  let main_v14 : IVec S16384 1 := cmpi .slt main_arg1 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x1024 : Shape := ⟨2, ![16384, 1024]⟩
abbrev S16384 : Shape := ⟨1, ![16384]⟩
abbrev S1000x1024 : Shape := ⟨2, ![1000, 1024]⟩
abbrev S16384x1 : Shape := ⟨2, ![16384, 1]⟩
abbrev S32x1x128 : Shape := ⟨3, ![32, 1, 128]⟩
abbrev S512x1024 : Shape := ⟨2, ![512, 1024]⟩
abbrev S512x1 : Shape := ⟨2, ![512, 1]⟩
abbrev S1x1x128 : Shape := ⟨3, ![1, 1, 128]⟩
abbrev S512 : Shape := ⟨1, ![512]⟩
abbrev S1000 : Shape := ⟨1, ![1000]⟩
abbrev S1000x1 : Shape := ⟨2, ![1000, 1]⟩
abbrev S512x1000 : Shape := ⟨2, ![512, 1000]⟩
abbrev S1 : Shape := ⟨1, ![1]⟩
abbrev S1x1 : Shape := ⟨2, ![1, 1]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S16384x1, .i32⟩
  | .hbm, ⟨4, _⟩ => ⟨S32x1x128, .f32⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1000x1024, .f32⟩
  | .local _ .vmem, ⟨5, _⟩ => ⟨S1x1x128, .f32⟩
  | .local _ .vmem, ⟨6, _⟩ => ⟨S1x1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384_S16384x1 : S16384.ShapeCasts S16384x1
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  inb_S1000x1024_S1000x1024_0_0 : ∀ a, (![0, 0] : Fin 2 → Nat) a + S1000x1024.size a ≤ S1000x1024.size a
  h_S1000x1024 : 0 < S1000x1024.numel
  reduces_S1000x1024_S1000 : S1000x1024.Reduces [1] S1000
  shapeCasts_S1000_S1000x1 : S1000.ShapeCasts S1000x1
  broadcasts_S1000x1_S1000x1024 : S1000x1.Broadcasts S1000x1024
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  broadcasts_S512x1_S512x1000 : S512x1.Broadcasts S512x1000
  natLt_1_32 : 1 < 32
  reduces_S512x1_S1 : S512x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  dot_S512x1000_S1000x1024_S512x1024_1_0_0_1_n_n_wf : DotDims.WF S512x1000 S1000x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S1000x1024.size a
  hwx0_2 : ∀ i : grid0.Coords, EltTy.bits .f32 = 32 ∨ (Rect.block (s := S1000x1024) S1000x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S32x1x128.size a
  hwx0_3 : ∀ i : grid0.Coords, EltTy.bits .f32 = 32 ∨ (Rect.block (s := S32x1x128) S1x1x128.size (cc0_transform_3 i) (hinb0_3 i)).WholeWords (EltTy.packing .f32)

variable [Facts₀]

def dot_S512x1000_S1000x1024_S512x1024_1_0_0_1_n_n : DotDims S512x1000 S1000x1024 S512x1024 where
  lhsContracting := [1]
  rhsContracting := [0]
  lhsNonContracting := [0]
  rhsNonContracting := [1]
  lhsBatch := []
  rhsBatch := []
  wf := dot_S512x1000_S1000x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384 : Shape := ⟨1, ![16384]⟩
abbrev S1000x1024 : Shape := ⟨2, ![1000, 1024]⟩
abbrev S_ : Shape := ⟨0, ![]⟩
abbrev S16384x1 : Shape := ⟨2, ![16384, 1]⟩
abbrev S1000 : Shape := ⟨1, ![1000]⟩
abbrev S1000x1 : Shape := ⟨2, ![1000, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S1000x1024, .f32⟩
  | .hbm, ⟨14, _⟩ => ⟨S_, .f32⟩
  | .hbm, ⟨15, _⟩ => ⟨S1000, .f32⟩
  | .hbm, ⟨16, _⟩ => ⟨S1000x1, .f32⟩
  | .hbm, ⟨17, _⟩ => ⟨S1000x1, .f32⟩
  | .hbm, ⟨18, _⟩ => ⟨S_, .f32⟩
  | .hbm, ⟨19, _⟩ => ⟨S1000x1, .f32⟩
  | .hbm, ⟨20, _⟩ => ⟨S1000x1, .f32⟩
  | .hbm, ⟨21, _⟩ => ⟨S1000x1024, .f32⟩
  | .hbm, ⟨22, _⟩ => ⟨S1000x1024, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_cst_9 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S1000x1024_S1000_d1 : S1000x1024.ReducesTo [1] S1000
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x1024_0_1 : S1000x1.BroadcastsInDim S1000x1024 (![0, 1] : Fin 2 → Fin S1000x1024.rank)
  bcast_S_S16384 : S_.BroadcastsInDim S16384 (![] : Fin 0 → Fin S16384.rank)
  reducesTo_S16384_S_d0 : S16384.ReducesTo [0] S_
  gather_S1000x1024_S16384x1_S16384x1024_1_0_n_n_0_1_11024_wf : GatherDims.WF S1000x1024 S16384x1 S16384x1024 [1] [0] [] [0] [] 1 ![1, 1024]

variable [Facts₀]

def gather_S1000x1024_S16384x1_S16384x1024_1_0_n_n_0_1_11024 : GatherDims S1000x1024 S16384x1 S16384x1024 where
  offsetDims := [1]
  collapsedSliceDims := [0]
  operandBatchingDims := []
  startIndicesBatchingDims := []
  startIndexMap := [0]
  indexVectorDim := 1
  sliceSizes := ![1, 1024]
  wf := gather_S1000x1024_S16384x1_S16384x1024_1_0_n_n_0_1_11024_wf

class Facts : Prop extends Facts₀ where

variable [Facts]
-- ==== Proof.Spec.lean ====
/-
  The mean clipped distance of normalised rows to their normalised class centres, as ONE function of the three
  argument arrays: the rows `x : [16384, 1024]`, the labels `lab : [16384]` and the centres `c : [1000, 1024]`.

  A row of an array is normalised by dividing each entry by the row's Euclidean norm, floored at a small positive
  constant. Row `r` of `x`, normalised, is `u`; the centre its label names, normalised, is `v`. The row's distance is
  `(Σ u² + Σ v²) − 2 · Σ u·v`, clipped from below by the floor and from above by a cap; the result is the sum of the
  16384 distances divided by the constant 16384. All over the extended reals; the four float constants stay as the
  values of their bit patterns and are never evaluated.
-/
import Idealize.ShloMosaic.PureOps.Ideal
import Idealize.ShloMosaic.Lib.ValueIdx

noncomputable section

namespace Cert.Hand.Spec

open Idealize.ShloMosaic Idealize.ShloMosaic.ValueIdx

/-- The floor under a norm and under a distance. -/
def floorv : EReal := Ideal.ofBits .f32 0x2B8CBCCC#32
/-- The cap over a distance. -/
def capv : EReal := Ideal.ofBits .f32 0x5368D4A5#32
/-- The factor of the inner product. -/
def twov : EReal := Ideal.ofBits .f32 0x40000000#32
/-- The divisor of the mean. -/
def countv : EReal := Ideal.ofBits .f32 0x46800000#32

/-- Entry `(r, d)` of an `R × 1024` array divided by the norm of row `r`, the norm floored at `floorv`. -/
def unit {R : Nat} (a : (⟨2, ![R, 1024]⟩ : Shape).Idx → EReal) (r : Fin R) (d : Fin 1024) : EReal :=
  Ideal.div (a (ix2 r d)) (max (Ideal.sqrt (∑ k : Fin 1024, a (ix2 r k) * a (ix2 r k))) floorv)

/-- The centre a label names: the label read as a signed integer, as a row of the table (kept below 1000, so that
    the function is total; for a label in `0 … 999` it is the label). -/
def labOf (lab : (⟨1, ![16384]⟩ : Shape).Idx → BitVec 32) (r : Fin 16384) : Fin 1000 :=
  ⟨min (lab (ix1 r)).toInt.toNat 999, by omega⟩

/-- Every label is in `0 … 999`. -/
def InRange (lab : (⟨1, ![16384]⟩ : Shape).Idx → BitVec 32) : Prop :=
  ∀ r : Fin 16384, 0 ≤ (lab (ix1 r)).toInt ∧ (lab (ix1 r)).toInt < 1000

/-- The clipped distance of two vectors: `(Σ u² + Σ v²) − 2 · Σ u·v`, between the floor and the cap. -/
def clipDist (u v : Fin 1024 → EReal) : EReal :=
  min capv (max floorv (((∑ d : Fin 1024, u d * u d) + (∑ d : Fin 1024, v d * v d)) - twov * (∑ d : Fin 1024, u d * v d)))

/-- Row `r`'s distance to its class centre. -/
def rowDist (x : (⟨2, ![16384, 1024]⟩ : Shape).Idx → EReal) (lab : (⟨1, ![16384]⟩ : Shape).Idx → BitVec 32)
    (c : (⟨2, ![1000, 1024]⟩ : Shape).Idx → EReal) (r : Fin 16384) : EReal :=
  clipDist (unit x r) (unit c (labOf lab r))

/-- The mean of the rows' distances. -/
def mean (x : (⟨2, ![16384, 1024]⟩ : Shape).Idx → EReal) (lab : (⟨1, ![16384]⟩ : Shape).Idx → BitVec 32)
    (c : (⟨2, ![1000, 1024]⟩ : Shape).Idx → EReal) : EReal :=
  Ideal.div (∑ r : Fin 16384, rowDist x lab c r) countv

end Cert.Hand.Spec

end
-- ==== Proof.PreLabels.lean ====
/-
  From the precondition to the range of the labels. The precondition is a conjunction of four reductions by `and`;
  the third says every label is at least 0 and the fourth says every label is below 1000, both as signed 32-bit
  comparisons against a broadcast scalar constant. That the conjunction is 1 gives each comparison at each row.
-/
import proofs.«426857_j52896817218211_3_alg».proof.Pre_finite_inputs
import proofs.«426857_j52896817218211_3_alg».proof.Proof.Gen.Pre_finite_inputs
import proofs.«426857_j52896817218211_3_alg».proof.Proof.Spec
import Idealize.ShloMosaic.Lib.ReduceAll
import Idealize.ShloMosaic.Lib.StableHlo.Predicate

namespace Cert.Hand.PreLabels

open Idealize.ShloMosaic Idealize.ShloMosaic.ValueIdx

/-- The rank-0 shape has one index. -/
instance subsingleton_scalar_idx : Subsingleton Cert.Pre_finite_inputs.S_.Idx :=
  ⟨fun a b => funext fun d => d.elim0⟩

theorem inRange_of_pre {F : FTy → Type} [FloatOps F]
    (x : FVec F Cert.Pre_finite_inputs.S16384x1024 .f32) (lab : IVec Cert.Pre_finite_inputs.S16384 32)
    (c : FVec F Cert.Pre_finite_inputs.S1000x1024 .f32)
    (h : Cert.Pre_finite_inputs.fn (F := F) x lab c = fun _ => 1#1) : Cert.Hand.Spec.InRange lab := by
  have h0 := congrFun h ValueIdx.ix0
  dsimp only [Cert.Pre_finite_inputs.fn, Cert.Pre_finite_inputs.fn_part1, andi] at h0
  obtain ⟨h12, h15⟩ := IntOp.andi_eq_one.1 h0
  obtain ⟨_, h11⟩ := IntOp.andi_eq_one.1 h12
  intro r
  have hge := Host.reduce_andi_all _ _ _ _ _ h11 (ix1 r)
  have hlt := Host.reduce_andi_all _ _ _ _ _ h15 (ix1 r)
  dsimp only [cmpi] at hge hlt
  rw [StableHlo.Predicate.bcast_scalar _ Cert.Pre_finite_inputs.Facts.h_S_] at hge hlt
  dsimp only [constantI] at hge hlt
  have z0 : (0#32 : BitVec 32).toInt = 0 := by decide
  have z1 : (1000#32 : BitVec 32).toInt = 1000 := by decide
  have a := IntOp.cmpi_sge.1 hge
  have b := IntOp.cmpi_slt.1 hlt
  rw [z0] at a
  rw [z1] at b
  exact ⟨a, b⟩

end Cert.Hand.PreLabels
-- ==== Proof.LibRowGather.lean ====
/-
  A gather of whole rows, read at an index.

  What `x[idx]` of a table `x : [N, D]` at a column of indices `idx : [E, 1]` lowers to: a `stablehlo.gather` with
  offset_dims `[1]`, collapsed_slice_dims `[0]`, start_index_map `[0]`, index_vector_dim `1` and slice sizes `[1, D]`.
  Element `(e, c)` of the result is the table's element `(r, c)`, where `r` is the start index `idx[e, 0]` read as a
  signed integer and clamped into `0 … N - 1`.

  The road is the one the library takes for a flat array (`gather_take_apply`): the operand index is, per operand axis,
  clamped start + batching coordinate + offset coordinate. On axis `0` (collapsed, named by the start index map) only the
  clamped start is left; on axis `1` (the offset axis) only the offset coordinate. The lemma is first proved for the
  dimension numbers written out (`rowDims`), then for any record whose fields have those values.
-/
import Idealize.ShloMosaic.PureOps.Ideal
import Idealize.ShloMosaic.Lib.ValueIdx

noncomputable section

namespace Cert.LibRowGather

open Idealize.ShloMosaic Idealize.ShloMosaic.ValueIdx

section RowGather
variable {α : Type}

/-- The row gather's dimension numbers written out, for a table `[N, D]`, start indices `[E, 1]` and result `[E, D]`.
    The start indices' batching axes `sb` are left open: the conditions `wf` force the list to be empty, and nothing
    below reads it. -/
abbrev rowDims (N E D : Nat) (sb : List (Fin (⟨2, ![E, 1]⟩ : Shape).rank))
    (wf : GatherDims.WF ⟨2, ![N, D]⟩ ⟨2, ![E, 1]⟩ ⟨2, ![E, D]⟩ [1] [0] [] [0] sb 1 ![1, D]) :
    GatherDims ⟨2, ![N, D]⟩ ⟨2, ![E, 1]⟩ ⟨2, ![E, D]⟩ where
  offsetDims := [1]
  collapsedSliceDims := [0]
  operandBatchingDims := []
  startIndicesBatchingDims := sb
  startIndexMap := [0]
  indexVectorDim := 1
  sliceSizes := ![1, D]
  wf := wf

variable {N E D w : Nat} (sb : List (Fin (⟨2, ![E, 1]⟩ : Shape).rank))
  (wf : GatherDims.WF ⟨2, ![N, D]⟩ ⟨2, ![E, 1]⟩ ⟨2, ![E, D]⟩ [1] [0] [] [0] sb 1 ![1, D])

/-- Where result element `(e, c)` reads its start index: the only component of the start index map is component `0`,
    the result's one batch axis (axis `0`) is the start indices' axis `0`, and the index vector's axis (axis `1`, of
    size one) gets the component's number, so the place is `[e, 0]`. -/
theorem rowDims_siIdx (e : Fin E) (c : Fin D) (h0 : (0 : Fin 2) ∈ (rowDims N E D sb wf).startIndexMap) :
    (rowDims N E D sb wf).siIdx (ix2 e c) ⟨List.idxOf (0 : Fin 2) (rowDims N E D sb wf).startIndexMap,
        List.idxOf_lt_length_iff.2 h0⟩ = ix2 e (0 : Fin 1) := by
  funext b
  refine Fin.ext ?_
  match b with
  | ⟨0, _⟩ => rfl
  | ⟨1, _⟩ => rfl

/-- Axis `0` of the operand index (the collapsed axis, named by the start index map): the start index clamped into
    `0 … N - 1`; no batching coordinate (there are no batching axes) and no offset (the axis is collapsed). -/
theorem rowDims_axis0 (idx : IVec (⟨2, ![E, 1]⟩ : Shape) w) (e : Fin E) (c : Fin D) :
    (rowDims N E D sb wf).start (ix2 e c) idx 0 + (rowDims N E D sb wf).batchCoord (ix2 e c) 0
        + (rowDims N E D sb wf).offCoord (ix2 e c) 0
      = min (idx (ix2 e (0 : Fin 1))).toInt.toNat (N - 1) := by
  have h0 : (0 : Fin 2) ∈ (rowDims N E D sb wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  show (rowDims N E D sb wf).start (ix2 e c) idx 0 = _
  unfold GatherDims.start
  rw [dif_pos h0, rowDims_siIdx sb wf e c h0]
  rfl

/-- Axis `1` of the operand index (the one offset axis, not named by the start index map): the slice starts at `0`,
    there is no batching coordinate, and the offset is the result's coordinate on its offset axis, `c`. -/
theorem rowDims_axis1 (idx : IVec (⟨2, ![E, 1]⟩ : Shape) w) (e : Fin E) (c : Fin D) :
    (rowDims N E D sb wf).start (ix2 e c) idx 1 + (rowDims N E D sb wf).batchCoord (ix2 e c) 1
        + (rowDims N E D sb wf).offCoord (ix2 e c) 1
      = c.val := by
  have h10 : (1 : Fin 2) ≠ 0 := by decide
  have h1 : (1 : Fin 2) ∉ (rowDims N E D sb wf).startIndexMap := fun h => h10 (List.mem_singleton.mp h)
  have hk : (1 : Fin 2) ∈ (rowDims N E D sb wf).sKept :=
    (GatherDims.mem_sKept _ _).mpr ⟨fun h => h10 (List.mem_singleton.mp h), List.not_mem_nil⟩
  rw [GatherDims.batchCoord_eq_zero _ _ _ List.not_mem_nil, Nat.add_zero]
  unfold GatherDims.start GatherDims.offCoord
  rw [dif_neg h1, dif_pos hk, Nat.zero_add]
  rfl

/-- The row gather of the written-out dimension numbers, read at `(e, c)`. -/
theorem rowDims_apply (hN : 0 < N) (x : (⟨2, ![N, D]⟩ : Shape).Idx → α) (idx : IVec (⟨2, ![E, 1]⟩ : Shape) w)
    (e : Fin E) (c : Fin D) :
    Host.gather (rowDims N E D sb wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ => exact rowDims_axis0 sb wf idx e c
  | ⟨1, _⟩ => exact rowDims_axis1 sb wf idx e c

end RowGather

/-- THE ROW GATHER READ AT `(e, c)`: for any dimension-number record of the row-gather form, the operand at the row the
    start index `idx[e, 0]` names (signed, clamped into `0 … N - 1`) and the same column. -/
theorem rowGather_apply {α : Type} {N E D w : Nat} (hN : 0 < N)
    (g : GatherDims (⟨2, ![N, D]⟩ : Shape) (⟨2, ![E, 1]⟩ : Shape) (⟨2, ![E, D]⟩ : Shape))
    (hod : g.offsetDims = [1]) (hcs : g.collapsedSliceDims = [0]) (hob : g.operandBatchingDims = [])
    (hsm : g.startIndexMap = [0]) (hiv : g.indexVectorDim = 1) (hss : g.sliceSizes = ![1, D])
    (x : (⟨2, ![N, D]⟩ : Shape).Idx → α) (idx : IVec (⟨2, ![E, 1]⟩ : Shape) w) (e : Fin E) (c : Fin D) :
    Host.gather g x idx (ix2 e c)
      = x (ix2 (⟨min (idx (ix2 e (0 : Fin 1))).toInt.toNat (N - 1), by omega⟩ : Fin N) c) := by
  -- a record with these field values IS the written-out one: name its fields and substitute the six equations
  obtain ⟨od, cs, ob, sb, sm, iv, ss, wf⟩ := g
  dsimp only at hod hcs hob hsm hiv hss
  subst hod hcs hob hsm hiv hss
  exact rowDims_apply sb wf hN x idx e c

end Cert.LibRowGather

end
-- ==== Proof.RefMean.lean ====
/-
  The reference's value is the specification: the mean over the 16384 rows of the clipped distance of each normalised
  row to the normalised centre its label names.

  Each operation of the reference is read at explicit coordinates. A row of either table divided by its floored norm is
  the specification's unit vector; a label that is not negative passes the wrap-around select unchanged, so the row
  gather reads the centre table at the label clamped below 1000; the three row sums are the sums over the 1024 columns;
  the clip is the minimum with the cap of the maximum with the floor; the last sum runs over the 16384 rows and is
  divided by the count.
-/
import proofs.«426857_j52896817218211_3_alg».proof.Proof.Gen.ReferenceIdeal.Read
import proofs.«426857_j52896817218211_3_alg».proof.Proof.Spec
import proofs.«426857_j52896817218211_3_alg».proof.Proof.LibRowGather
import Idealize.ShloMosaic.Lib.ValueIdx
import Idealize.ShloMosaic.PureOps.Ideal.Laws

noncomputable section

namespace Cert.Hand.RefMean

open Idealize.ShloMosaic Idealize.ShloMosaic.ValueIdx Cert.ReferenceIdeal Cert.ReferenceIdeal.Read

/-! ## Index equations: the generated index functions at explicit coordinates -/

theorem idx_v1 (r : Fin 16384) (k : Fin 1024) : idx_main_v1 (ix1 r) k = ix2 r k :=
  funext fun a => Fin.ext (by match a with | ⟨0, _⟩ => rfl | ⟨1, _⟩ => rfl)

theorem idx_v2_v6 (r : Fin 16384) (d : Fin 1024) : idx_main_v2 (idx_main_v6 (ix2 r d)) = ix1 r :=
  funext fun a => Fin.ext (by match a with | ⟨0, _⟩ => rfl)

theorem idx_v9 (k : Fin 1000) (j : Fin 1024) : idx_main_v9 (ix1 k) j = ix2 k j :=
  funext fun a => Fin.ext (by match a with | ⟨0, _⟩ => rfl | ⟨1, _⟩ => rfl)

theorem idx_v10_v14 (k : Fin 1000) (d : Fin 1024) : idx_main_v10 (idx_main_v14 (ix2 k d)) = ix1 k :=
  funext fun a => Fin.ext (by match a with | ⟨0, _⟩ => rfl)

/-! ## The rows of `x`, normalised -/

/-- The sum of squares of row `r` of `x`. -/
theorem v1_eq (x : (⟨S16384x1024, .f32⟩ : BufTy).Contents (Elt Ideal)) (r : Fin 16384) :
    val_main_v1 (F := Ideal) x (ix1 r) = ∑ k : Fin 1024, x (ix2 r k) * x (ix2 r k) := by
  rw [val_main_v1_apply]
  simp only [val_main_cst_apply, val_main_v0_apply, idx_v1, Ideal.ofBits_def, Ideal.ofBits_zero_f32, Ideal.mulf_def,
    zero_add]

/-- Entry `(r, d)` of `x` divided by the floored norm of row `r`. -/
theorem v7_eq (x : (⟨S16384x1024, .f32⟩ : BufTy).Contents (Elt Ideal)) (r : Fin 16384) (d : Fin 1024) :
    val_main_v7 (F := Ideal) x (ix2 r d) = Cert.Hand.Spec.unit (R := 16384) x r d := by
  rw [val_main_v7_apply, val_main_v6_apply, val_main_v5_apply, val_main_v3_apply, val_main_v2_apply,
    val_main_v4_apply, val_main_cst_0_apply, idx_v2_v6, v1_eq]
  rfl

/-! ## The rows of the centre table, normalised -/

/-- The sum of squares of row `k` of `c`. -/
theorem v9_eq (c : (⟨S1000x1024, .f32⟩ : BufTy).Contents (Elt Ideal)) (k : Fin 1000) :
    val_main_v9 (F := Ideal) c (ix1 k) = ∑ j : Fin 1024, c (ix2 k j) * c (ix2 k j) := by
  rw [val_main_v9_apply]
  simp only [val_main_cst_1_apply, val_main_v8_apply, idx_v9, Ideal.ofBits_def, Ideal.ofBits_zero_f32, Ideal.mulf_def,
    zero_add]

/-- Entry `(k, d)` of `c` divided by the floored norm of row `k`. -/
theorem v15_eq (c : (⟨S1000x1024, .f32⟩ : BufTy).Contents (Elt Ideal)) (k : Fin 1000) (d : Fin 1024) :
    val_main_v15 (F := Ideal) c (ix2 k d) = Cert.Hand.Spec.unit (R := 1000) c k d := by
  rw [val_main_v15_apply, val_main_v14_apply, val_main_v13_apply, val_main_v11_apply, val_main_v10_apply,
    val_main_v12_apply, val_main_cst_2_apply, idx_v10_v14, v9_eq]
  rfl

/-! ## The labels: a label that is not negative is not wrapped -/

/-- A word whose signed value is not negative is not signed-less-than zero. -/
theorem cmpi_slt_zero (a : BitVec 32) (h : 0 ≤ a.toInt) : IntOp.cmpi .slt a 0#32 = 0#1 := by
  have hs : a.slt 0#32 = false := by
    unfold BitVec.slt
    simp only [BitVec.toInt_zero, decide_eq_false_iff_not, not_lt]
    exact h
  show BitVec.ofBool (a.slt 0#32) = 0#1
  rw [hs]
  rfl

theorem idx_v21 (r : Fin 16384) : idx_main_v21 (ix2 r (0 : Fin 1)) = ix1 r :=
  funext fun a => Fin.ext (by match a with | ⟨0, _⟩ => rfl)

/-- The wrap-around select leaves a label in range as it is. -/
theorem v20_eq (lab : (⟨S16384, .i32⟩ : BufTy).Contents (Elt Ideal)) (hlab : Cert.Hand.Spec.InRange lab) (r : Fin 16384) :
    val_main_v20 (F := Ideal) lab (ix1 r) = lab (ix1 r) := by
  rw [val_main_v20_apply, val_main_v17_apply, val_main_v16_apply, val_main_c_apply,
    cmpi_slt_zero _ (hlab r).1, select_zero]

/-- The column of start indices at row `r` is the label of row `r`. -/
theorem v21_eq (lab : (⟨S16384, .i32⟩ : BufTy).Contents (Elt Ideal)) (hlab : Cert.Hand.Spec.InRange lab) (r : Fin 16384) :
    val_main_v21 (F := Ideal) lab (ix2 r (0 : Fin 1)) = lab (ix1 r) := by
  rw [val_main_v21_apply, idx_v21, v20_eq lab hlab r]

/-! ## The gathered centres -/

/-- Entry `(r, d)` of the gathered table: the normalised centre the label of row `r` names. -/
theorem v22_eq (lab : (⟨S16384, .i32⟩ : BufTy).Contents (Elt Ideal)) (c : (⟨S1000x1024, .f32⟩ : BufTy).Contents (Elt Ideal))
    (hlab : Cert.Hand.Spec.InRange lab) (r : Fin 16384) (d : Fin 1024) :
    val_main_v22 (F := Ideal) lab c (ix2 r d) = Cert.Hand.Spec.unit (R := 1000) c (Cert.Hand.Spec.labOf lab r) d := by
  unfold val_main_v22
  refine (Cert.LibRowGather.rowGather_apply (N := 1000) (E := 16384) (D := 1024) (w := 32) (by decide)
    gather_S1000x1024_S16384x1_S16384x1024_1_0_n_n_0_1_11024 rfl rfl rfl rfl rfl rfl
    (val_main_v15 (F := Ideal) c) (val_main_v21 (F := Ideal) lab) r d).trans ?_
  refine (congrArg (fun k : Fin 1000 => val_main_v15 (F := Ideal) c (ix2 k d))
    (Fin.ext ?_ : _ = Cert.Hand.Spec.labOf lab r)).trans (v15_eq c _ d)
  show min (val_main_v21 (F := Ideal) lab (ix2 r (0 : Fin 1))).toInt.toNat (1000 - 1) = min (lab (ix1 r)).toInt.toNat 999
  rw [v21_eq lab hlab r]

/-! ## The three row sums, the clipped distance, and the mean -/

theorem idx_v24 (r : Fin 16384) (k : Fin 1024) : idx_main_v24 (ix1 r) k = ix2 r k :=
  funext fun a => Fin.ext (by match a with | ⟨0, _⟩ => rfl | ⟨1, _⟩ => rfl)

theorem idx_v26 (r : Fin 16384) (k : Fin 1024) : idx_main_v26 (ix1 r) k = ix2 r k :=
  funext fun a => Fin.ext (by match a with | ⟨0, _⟩ => rfl | ⟨1, _⟩ => rfl)

theorem idx_v29 (r : Fin 16384) (k : Fin 1024) : idx_main_v29 (ix1 r) k = ix2 r k :=
  funext fun a => Fin.ext (by match a with | ⟨0, _⟩ => rfl | ⟨1, _⟩ => rfl)

/-- The squared length of the normalised row `r`. -/
theorem v24_eq (x : (⟨S16384x1024, .f32⟩ : BufTy).Contents (Elt Ideal)) (r : Fin 16384) :
    val_main_v24 (F := Ideal) x (ix1 r)
      = ∑ d : Fin 1024, Cert.Hand.Spec.unit (R := 16384) x r d * Cert.Hand.Spec.unit (R := 16384) x r d := by
  rw [val_main_v24_apply]
  simp only [val_main_cst_4_apply, val_main_v23_apply, idx_v24, v7_eq, Ideal.ofBits_def, Ideal.ofBits_zero_f32,
    Ideal.mulf_def, zero_add]

/-- The squared length of the normalised centre of row `r`. -/
theorem v26_eq (lab : (⟨S16384, .i32⟩ : BufTy).Contents (Elt Ideal)) (c : (⟨S1000x1024, .f32⟩ : BufTy).Contents (Elt Ideal))
    (hlab : Cert.Hand.Spec.InRange lab) (r : Fin 16384) :
    val_main_v26 (F := Ideal) lab c (ix1 r)
      = ∑ d : Fin 1024, Cert.Hand.Spec.unit (R := 1000) c (Cert.Hand.Spec.labOf lab r) d
          * Cert.Hand.Spec.unit (R := 1000) c (Cert.Hand.Spec.labOf lab r) d := by
  rw [val_main_v26_apply]
  simp only [val_main_cst_5_apply, val_main_v25_apply, idx_v26, v22_eq lab c hlab, Ideal.ofBits_def,
    Ideal.ofBits_zero_f32, Ideal.mulf_def, zero_add]

/-- The inner product of the normalised row `r` and its normalised centre. -/
theorem v29_eq (x : (⟨S16384x1024, .f32⟩ : BufTy).Contents (Elt Ideal)) (lab : (⟨S16384, .i32⟩ : BufTy).Contents (Elt Ideal))
    (c : (⟨S1000x1024, .f32⟩ : BufTy).Contents (Elt Ideal)) (hlab : Cert.Hand.Spec.InRange lab) (r : Fin 16384) :
    val_main_v29 (F := Ideal) x lab c (ix1 r)
      = ∑ d : Fin 1024, Cert.Hand.Spec.unit (R := 16384) x r d
          * Cert.Hand.Spec.unit (R := 1000) c (Cert.Hand.Spec.labOf lab r) d := by
  rw [val_main_v29_apply]
  simp only [val_main_cst_6_apply, val_main_v28_apply, idx_v29, v7_eq, v22_eq lab c hlab, Ideal.ofBits_def,
    Ideal.ofBits_zero_f32, Ideal.mulf_def, zero_add]

/-- The clipped distance of row `r`. -/
theorem v33_eq (x : (⟨S16384x1024, .f32⟩ : BufTy).Contents (Elt Ideal)) (lab : (⟨S16384, .i32⟩ : BufTy).Contents (Elt Ideal))
    (c : (⟨S1000x1024, .f32⟩ : BufTy).Contents (Elt Ideal)) (hlab : Cert.Hand.Spec.InRange lab) (r : Fin 16384) :
    val_main_v33 (F := Ideal) x lab c (ix1 r) = Cert.Hand.Spec.rowDist x lab c r := by
  rw [val_main_v33_apply, val_main_call0_v4_apply, val_main_call0_v3_apply, val_main_cst_9_apply,
    val_main_call0_v2_apply, val_main_call0_v1_apply, val_main_call0_v0_apply, val_main_cst_8_apply,
    val_main_v32_apply, val_main_v27_apply, val_main_v31_apply, val_main_v30_apply, val_main_cst_7_apply,
    v24_eq, v26_eq lab c hlab, v29_eq x lab c hlab]
  rfl

/-- A rank-1 index set is its one coordinate range … -/
def idxEquiv1 {n : Nat} : (⟨1, ![n]⟩ : Shape).Idx ≃ Fin n where
  toFun j := j 0
  invFun r := ix1 r
  left_inv j := (eq_ix1 j).symm
  right_inv _ := rfl

/-- … so a sum over it is the sum over the coordinate. -/
theorem sum_idx1 {n : Nat} (f : (⟨1, ![n]⟩ : Shape).Idx → EReal) : ∑ j, f j = ∑ r : Fin n, f (ix1 r) := by
  rw [← Equiv.sum_comp (idxEquiv1 (n := n)).symm f]
  rfl

/-- THE REFERENCE'S VALUE IS THE SPECIFICATION. -/
theorem ref_eq_mean (x : (⟨S16384x1024, .f32⟩ : BufTy).Contents (Elt Ideal)) (lab : (⟨S16384, .i32⟩ : BufTy).Contents (Elt Ideal))
    (c : (⟨S1000x1024, .f32⟩ : BufTy).Contents (Elt Ideal)) (hlab : Cert.Hand.Spec.InRange lab) :
    val_main_v35 (F := Ideal) x lab c = fun _ => Cert.Hand.Spec.mean x lab c := by
  funext i
  rw [val_main_v35_apply, val_main_v34_apply, val_main_cst_11_apply, val_main_cst_10_apply, sum_idx1]
  simp only [v33_eq x lab c hlab, Ideal.ofBits_def, Ideal.ofBits_zero_f32, zero_add, Ideal.hostDivf_def]
  rfl

end Cert.Hand.RefMean

end
-- ==== Proof.RowOps.lean ====
/-
  Reading a row-wise computation at an entry.

  The kernel body and the specification meet in a few small facts about arrays of shape `[R, 1024]`, columns
  `[R, 1]` and vectors `[R]`: a column made from a vector holds the vector's entries; a column spread over 1024
  lanes holds at `(p, d)` the column's entry `p`; the sum along the lanes at `p` is the finite sum over the 1024
  entries of row `p`. From these, an array divided by its rows' floored norms holds at `(p, d)` the specification's
  normalised entry.
-/
import proofs.«426857_j52896817218211_3_alg».proof.Proof.Spec
import Idealize.ShloMosaic.Lib.Pipeline.Value
import Idealize.ShloMosaic.PureOps.Ideal.Laws

noncomputable section

namespace Cert.Hand.RowOps

open Idealize.ShloMosaic Idealize.ShloMosaic.ValueIdx Cert.Hand

variable {α : Type} {R : Nat}

/-- A vector `[R]` viewed as a column `[R, 1]`: entry `(p, 0)` is the vector's entry `p`. -/
theorem col_of_vec (v : (⟨1, ![R]⟩ : Shape).Idx → α) (h : (⟨1, ![R]⟩ : Shape).ShapeCasts ⟨2, ![R, 1]⟩) (p : Fin R) :
    shapeCast (⟨2, ![R, 1]⟩ : Shape) v h (ix2 p (0 : Fin 1)) = v (ix1 p) := by
  refine shapeCast_apply v h _ _ ?_
  rw [Shape.rowMajor_val_one, Shape.rowMajor_val_two]
  show p.val = p.val * 1 + 0
  omega

/-- A column `[R, 1]` spread over the lanes: entry `(p, d)` is the column's entry `p`. -/
theorem spread_col {C : Nat} (v : (⟨2, ![R, 1]⟩ : Shape).Idx → α) (h : (⟨2, ![R, 1]⟩ : Shape).Broadcasts ⟨2, ![R, C]⟩)
    (p : Fin R) (d : Fin C) :
    broadcastTo (⟨2, ![R, C]⟩ : Shape) v h (ix2 p d) = v (ix2 p (0 : Fin 1)) := by
  refine broadcastTo_apply v h _ _ fun a => ?_
  match a with
  | ⟨0, _⟩ =>
    show p.val = if R = 1 then 0 else p.val
    have := p.isLt
    split_ifs <;> omega
  | ⟨1, _⟩ =>
    show 0 = if (1 : Nat) = 1 then 0 else d.val
    rw [if_pos rfl]

/-- The sum along the 1024 lanes, at `p`: the finite sum over row `p`. -/
theorem lane_sum (v : FVec Ideal (⟨2, ![R, 1024]⟩ : Shape) .f32) (h : (⟨2, ![R, 1024]⟩ : Shape).Reduces [1] ⟨1, ![R]⟩)
    (hφ : FKind.Formats .f32) (hacc : (0x00000000#32 : BitVec 32) = 0x00000000#32) (p : Fin R) :
    multiReduction .add [1] (⟨1, ![R]⟩ : Shape) v 0x00000000#32 h hφ hacc (ix1 p) = ∑ k : Fin 1024, v (ix2 p k) := by
  refine (Ideal.multiReduction_add_single v 0x00000000#32 h hφ hacc (ix1 p)).trans ?_
  refine Finset.sum_congr rfl fun k _ => congrArg v ?_
  funext a
  refine Fin.ext ?_
  match a with
  | ⟨0, _⟩ => rfl
  | ⟨1, _⟩ => rfl

/-- The sum of a column `[R, 1]` along its rows, at its one entry: the finite sum over the `R` rows. -/
theorem col_sum (v : FVec Ideal (⟨2, ![R, 1]⟩ : Shape) .f32) (h : (⟨2, ![R, 1]⟩ : Shape).Reduces [0] ⟨1, ![1]⟩)
    (hφ : FKind.Formats .f32) (hacc : (0x00000000#32 : BitVec 32) = 0x00000000#32) :
    multiReduction .add [0] (⟨1, ![1]⟩ : Shape) v 0x00000000#32 h hφ hacc (ix1 (0 : Fin 1)) = ∑ p : Fin R, v (ix2 p (0 : Fin 1)) := by
  refine (Ideal.multiReduction_add_single v 0x00000000#32 h hφ hacc (ix1 (0 : Fin 1))).trans ?_
  refine Finset.sum_congr rfl fun p _ => congrArg v ?_
  funext a
  refine Fin.ext ?_
  match a with
  | ⟨0, _⟩ => rfl
  | ⟨1, _⟩ => rfl

/-- An array divided by its rows' norms, each floored: entry `(p, d)` is the specification's normalised entry. -/
theorem unit_apply (a : FVec Ideal (⟨2, ![R, 1024]⟩ : Shape) .f32)
    (hr : (⟨2, ![R, 1024]⟩ : Shape).Reduces [1] ⟨1, ![R]⟩) (hφ : FKind.Formats .f32)
    (hacc : (0x00000000#32 : BitVec 32) = 0x00000000#32)
    (hc : (⟨1, ![R]⟩ : Shape).ShapeCasts ⟨2, ![R, 1]⟩) (hb : (⟨2, ![R, 1]⟩ : Shape).Broadcasts ⟨2, ![R, 1024]⟩)
    (p : Fin R) (d : Fin 1024) :
    divf a (broadcastTo (⟨2, ![R, 1024]⟩ : Shape)
        (maximumf (sqrt (shapeCast (⟨2, ![R, 1]⟩ : Shape)
            (multiReduction .add [1] (⟨1, ![R]⟩ : Shape) (mulf a a) 0x00000000#32 hr hφ hacc) hc))
          (broadcast (⟨2, ![R, 1]⟩ : Shape) (Scalar.ofBits .f32 0x2B8CBCCC#32))) hb) (ix2 p d)
      = Spec.unit a p d := by
  rw [divf_apply, spread_col, maximumf_apply, broadcast_apply]
  show Ideal.div (a (ix2 p d)) (max (Ideal.sqrt (shapeCast (⟨2, ![R, 1]⟩ : Shape) _ hc (ix2 p (0 : Fin 1)))) _) = _
  rw [col_of_vec, lane_sum]
  rfl

/-- A sum over the indices of a vector `[n]` is the sum over its `n` positions. -/
theorem sum_ix1 {M : Type} [AddCommMonoid M] {n : Nat} (f : (⟨1, ![n]⟩ : Shape).Idx → M) :
    ∑ i : (⟨1, ![n]⟩ : Shape).Idx, f i = ∑ k : Fin n, f (ix1 k) := by
  refine Fintype.sum_equiv ⟨fun i => i 0, fun k => ix1 k, fun i => (eq_ix1 i).symm, fun _ => rfl⟩ _ _ fun i => ?_
  exact congrArg f (eq_ix1 i)

/-- Rows that agree entry by entry have the same normalised entries. -/
theorem unit_congr {R' : Nat} (a : (⟨2, ![R, 1024]⟩ : Shape).Idx → EReal) (b : (⟨2, ![R', 1024]⟩ : Shape).Idx → EReal)
    (p : Fin R) (q : Fin R') (h : ∀ d : Fin 1024, a (ix2 p d) = b (ix2 q d)) (d : Fin 1024) :
    Spec.unit a p d = Spec.unit b q d := by
  unfold Spec.unit
  simp only [h]

end Cert.Hand.RowOps

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.KernelBody.lean ====
/-
  The kernel body's arithmetic, read at an entry.

  For one tile of 512 rows the body computes a column of 512 distances and their sum. The centre row of a tile row
  is picked by a matrix product with a 0/1 matrix: entry `(p, k')` of that matrix is 1 when the row's label is `k'`
  and 0 otherwise, so the product's row `p` is the table's row named by the label (a sum in which one term
  survives: `1 · a = a`, `0 · a = 0` on the extended reals). With that, the column's entry `p` is the specification's
  unclipped distance of the normalised tile row to the normalised centre, and the stored block holds on every lane
  the sum over the tile of the clipped distances.
-/
import proofs.«426857_j52896817218211_3_alg».proof.Proof.Gen.KernelIdeal.Skeleton
import proofs.«426857_j52896817218211_3_alg».proof.Proof.RowOps
import proofs.«426857_j52896817218211_3_alg».proof.Proof.LibPlainDot
import Idealize.ShloMosaic.Lib.StableHlo.Predicate

noncomputable section

namespace Cert.Hand.KernelBody

open Idealize.ShloMosaic Idealize.ShloMosaic.ValueIdx Cert.KernelIdeal Cert.KernelIdeal.Gen Cert.Hand

/-- Two labels below 1000, as 32-bit words, are equal words only when equal. -/
theorem word_eq_iff (k k' : Fin 1000) : BitVec.ofNat 32 k.val = BitVec.ofNat 32 k'.val ↔ k = k' := by
  constructor
  · intro h
    have h' := congrArg BitVec.toNat h
    rw [BitVec.toNat_ofNat, BitVec.toNat_ofNat] at h'
    have := k.isLt; have := k'.isLt
    exact Fin.ext (by omega)
  · intro h; rw [h]

/-- Entry `(p, k')` of the 0/1 matrix of a tile whose row `p` carries the label `k`. -/
theorem onehot_apply (lb : Vec Ideal S512x1 .i32) (p : Fin 512) (k k' : Fin 1000)
    (hl : lb (ix2 p (0 : Fin 1)) = BitVec.ofNat 32 k.val)
    (hsc : S512x1.ShapeCasts S512x1) (hio : S512x1000.Iotas .tc 32 [1]) (hb : S512x1.Broadcasts S512x1000)
    (h132 : 1 < 32) (hbits : FTy.bits .bf16 < FTy.bits .f32) :
    (truncf .bf16 (sitofp .f32 (extui 32 (cmpi .eq (broadcastTo S512x1000 (shapeCast S512x1 lb hsc) hb)
        (iota .tc S512x1000 32 [1] hio)) h132) : FVec Ideal S512x1000 .f32) hbits : FVec Ideal S512x1000 .bf16) (ix2 p k')
      = if k' = k then (1 : EReal) else 0 := by
  rw [truncf_apply, sitofp_apply, extui_apply]
  show FloatOps.sitofp (F := Ideal) .f32 ((IntOp.cmpi .eq (broadcastTo S512x1000 (shapeCast S512x1 lb hsc) hb (ix2 p k'))
      (iota .tc S512x1000 32 [1] hio (ix2 p k'))).setWidth 32) = _
  rw [RowOps.spread_col, shapeCast_self, hl, iota_single_apply]
  show (((((IntOp.cmpi .eq (BitVec.ofNat 32 k.val) (BitVec.ofNat 32 k'.val)).setWidth 32).toInt : ℤ) : ℝ) : EReal) = _
  by_cases hk : k' = k
  · subst hk
    rw [if_pos rfl, StableHlo.Predicate.cmpi_eq_iff.mpr rfl]
    have e : ((1#1 : BitVec 1).setWidth 32).toInt = 1 := by decide
    rw [e]; norm_num
  · rw [if_neg hk, eq_zero_of_ne_one fun h => hk ((word_eq_iff k k').mp (StableHlo.Predicate.cmpi_eq_iff.mp h)).symm]
    have e : ((0#1 : BitVec 1).setWidth 32).toInt = 0 := by decide
    rw [e]; norm_num

/-- A sum against the 0/1 row of the label `k` picks the term `k`. -/
theorem onehot_sum (f : Fin 1000 → EReal) (k : Fin 1000) :
    ∑ k' : Fin 1000, (if k' = k then (1 : EReal) else 0) * f k' = f k := by
  rw [Finset.sum_eq_single k]
  · rw [if_pos rfl, one_mul]
  · intro b _ hb; rw [if_neg hb, zero_mul]
  · intro h; exact absurd (Finset.mem_univ k) h

/-- The product's dimension numbers are the plain ones: columns against rows, nothing batched. -/
theorem dot_plain : PlainDot.IsPlain dot_S512x1000_S1000x1024_S512x1024_1_0_0_1_n_n :=
  ⟨rfl, rfl, rfl, rfl, rfl, rfl⟩

/-- The product of the 0/1 matrix of a tile with a table, at `(p, d)` where row `p` carries the label `k`: the
    table's entry `(k, d)`. -/
theorem csel_apply (lb : Vec Ideal S512x1 .i32) (cn : FVec Ideal S1000x1024 .bf16) (p : Fin 512) (k : Fin 1000) (d : Fin 1024)
    (hl : lb (ix2 p (0 : Fin 1)) = BitVec.ofNat 32 k.val)
    (hsc : S512x1.ShapeCasts S512x1) (hio : S512x1000.Iotas .tc 32 [1]) (hb : S512x1.Broadcasts S512x1000)
    (h132 : 1 < 32) (hbits : FTy.bits .bf16 < FTy.bits .f32) :
    matmul dot_S512x1000_S1000x1024_S512x1024_1_0_0_1_n_n none
        (truncf .bf16 (sitofp .f32 (extui 32 (cmpi .eq (broadcastTo S512x1000 (shapeCast S512x1 lb hsc) hb)
          (iota .tc S512x1000 32 [1] hio)) h132) : FVec Ideal S512x1000 .f32) hbits : FVec Ideal S512x1000 .bf16)
        cn (constant S512x1024 .f32 0x00000000#32) (ix2 p d) = cn (ix2 k d) := by
  refine (dot_plain.matmul_zero_apply none _ _ p d).trans ?_
  simp only [onehot_apply lb p k _ hl]
  exact onehot_sum (fun k' => cn (ix2 k' d)) k

/-- A column of row sums combined as `(Σ a² + Σ b²) − 2 · Σ a·b`, at row `p`. -/
theorem dist_col (a b : FVec Ideal S512x1024 .f32) (hr : S512x1024.Reduces [1] S512) (hφ : FKind.Formats .f32)
    (hacc : (0x00000000#32 : BitVec 32) = 0x00000000#32) (hc : S512.ShapeCasts S512x1) (p : Fin 512) :
    subf (addf (shapeCast S512x1 (multiReduction .add [1] S512 (mulf a a) 0x00000000#32 hr hφ hacc) hc)
          (shapeCast S512x1 (multiReduction .add [1] S512 (mulf b b) 0x00000000#32 hr hφ hacc) hc))
        (mulf (broadcast S512x1 (FloatOps.ofBits (F := Ideal) .f32 0x40000000#32))
          (shapeCast S512x1 (multiReduction .add [1] S512 (mulf a b) 0x00000000#32 hr hφ hacc) hc)) (ix2 p (0 : Fin 1))
      = ((∑ d : Fin 1024, a (ix2 p d) * a (ix2 p d)) + (∑ d : Fin 1024, b (ix2 p d) * b (ix2 p d)))
          - Spec.twov * (∑ d : Fin 1024, a (ix2 p d) * b (ix2 p d)) := by
  rw [subf_apply, addf_apply, mulf_apply, broadcast_apply, RowOps.col_of_vec, RowOps.col_of_vec, RowOps.col_of_vec,
    RowOps.lane_sum, RowOps.lane_sum, RowOps.lane_sum]
  rfl

/-- A tile divided by its rows' floored norms, at `(p, d)`. -/
theorem unit_tile (a : FVec Ideal S512x1024 .f32) (hr : S512x1024.Reduces [1] S512) (hφ : FKind.Formats .f32)
    (hacc : (0x00000000#32 : BitVec 32) = 0x00000000#32) (hc : S512.ShapeCasts S512x1) (hb : S512x1.Broadcasts S512x1024)
    (p : Fin 512) (d : Fin 1024) :
    divf a (broadcastTo S512x1024 (maximumf (sqrt (shapeCast S512x1 (multiReduction .add [1] S512 (mulf a a) 0x00000000#32 hr hφ hacc) hc))
        (broadcast S512x1 (FloatOps.ofBits (F := Ideal) .f32 0x2B8CBCCC#32))) hb) (ix2 p d) = Spec.unit a p d :=
  RowOps.unit_apply (R := 512) a hr hφ hacc hc hb p d

/-- The table divided by its rows' floored norms, at `(k, d)`. -/
theorem unit_table (a : FVec Ideal S1000x1024 .f32) (hr : S1000x1024.Reduces [1] S1000) (hφ : FKind.Formats .f32)
    (hacc : (0x00000000#32 : BitVec 32) = 0x00000000#32) (hc : S1000.ShapeCasts S1000x1) (hb : S1000x1.Broadcasts S1000x1024)
    (k : Fin 1000) (d : Fin 1024) :
    divf a (broadcastTo S1000x1024 (maximumf (sqrt (shapeCast S1000x1 (multiReduction .add [1] S1000 (mulf a a) 0x00000000#32 hr hφ hacc) hc))
        (broadcast S1000x1 (FloatOps.ofBits (F := Ideal) .f32 0x2B8CBCCC#32))) hb) (ix2 k d) = Spec.unit a k d :=
  RowOps.unit_apply (R := 1000) a hr hφ hacc hc hb k d

/-- The unclipped distance column of a tile, at row `p` whose label is `k`: the specification's
    `(Σ u² + Σ v²) − 2 · Σ u·v` of the normalised tile row `u` and the normalised centre `v` of the label. -/
theorem pay2_apply (x0 : Vec Ideal S512x1024 .f32) (tb : Vec Ideal S1000x1024 .f32) (lb : Vec Ideal S512x1 .i32)
    (p : Fin 512) (k : Fin 1000) (hl : lb (ix2 p (0 : Fin 1)) = BitVec.ofNat 32 k.val) :
    k0_pay2 (F := Ideal) x0 tb lb (ix2 p (0 : Fin 1))
      = ((∑ d : Fin 1024, Spec.unit x0 p d * Spec.unit x0 p d) + (∑ d : Fin 1024, Spec.unit tb k d * Spec.unit tb k d))
          - Spec.twov * (∑ d : Fin 1024, Spec.unit x0 p d * Spec.unit tb k d) := by
  unfold k0_pay2
  dsimp only
  refine (dist_col _ _ _ _ _ _ p).trans ?_
  simp only [csel_apply lb _ p k _ hl, truncf_apply]
  have hx : ∀ d : Fin 1024, _ = Spec.unit x0 p d := fun d =>
    unit_tile x0 Facts₀.reduces_S512x1024_S512 (.inl rfl) rfl Facts₀.shapeCasts_S512_S512x1 Facts₀.broadcasts_S512x1_S512x1024 p d
  have ht : ∀ d : Fin 1024, _ = Spec.unit tb k d := fun d =>
    unit_table tb Facts₀.reduces_S1000x1024_S1000 (.inl rfl) rfl Facts₀.shapeCasts_S1000_S1000x1 Facts₀.broadcasts_S1000x1_S1000x1024 k d
  refine congrArg₂ (· - ·) (congrArg₂ (· + ·) (Finset.sum_congr rfl fun d _ => ?_) (Finset.sum_congr rfl fun d _ => ?_))
    (congrArg (Spec.twov * ·) (Finset.sum_congr rfl fun d _ => ?_))
  · exact congrArg₂ (· * ·) (hx d) (hx d)
  · exact congrArg₂ (· * ·) (ht d) (ht d)
  · exact congrArg₂ (· * ·) (hx d) (ht d)

/-- The stored block of a tile: on every lane, the sum over the tile's 512 rows of the clipped distances. -/
theorem pay1_apply (v40 : FVec Ideal S512x1 .f32) (l : Fin 128) :
    k0_pay1 (F := Ideal) v40 (Scalar.ofBits .f32 0x5368D4A5#32) (k0_pay3 (F := Ideal)) (ix3 (0 : Fin 1) (0 : Fin 1) l)
      = ∑ p : Fin 512, min Spec.capv (max Spec.floorv (v40 (ix2 p (0 : Fin 1)))) := by
  unfold k0_pay1 k0_pay3
  dsimp only
  refine (broadcastTo_apply _ Facts₀.broadcasts_S1x1x1_S1x1x128 _ (ix3 (0 : Fin 1) (0 : Fin 1) (0 : Fin 1)) fun a => ?_).trans ?_
  · match a with
    | ⟨0, _⟩ => rfl
    | ⟨1, _⟩ => rfl
    | ⟨2, _⟩ => rfl
  rw [shapeCast_self]
  refine (shapeCast_apply _ Facts₀.shapeCasts_S1x1_S1x1x1 _ (ix2 (0 : Fin 1) (0 : Fin 1)) ?_).trans ?_
  · rw [Shape.rowMajor_val_two, Shape.rowMajor_val_three]; rfl
  rw [RowOps.col_of_vec, RowOps.col_sum]
  refine Finset.sum_congr rfl fun p _ => ?_
  rw [minimumf_apply, maximumf_apply, broadcast_apply, broadcast_apply]
  rfl

/-- The stored block of a tile from its rows: when row `p`'s clipped distance is `f p`, every entry of the block is the
    sum of the `f p`. -/
theorem tile_block (x0 : Vec Ideal S512x1024 .f32) (tb : Vec Ideal S1000x1024 .f32) (lb : Vec Ideal S512x1 .i32)
    (f : Fin 512 → EReal)
    (hrow : ∀ p : Fin 512, min Spec.capv (max Spec.floorv (k0_pay2 (F := Ideal) x0 tb lb (ix2 p (0 : Fin 1)))) = f p)
    (j : S1x1x128.Idx) :
    k0_pay1 (F := Ideal) (k0_pay2 (F := Ideal) x0 tb lb) (Scalar.ofBits .f32 0x5368D4A5#32) (k0_pay3 (F := Ideal)) j
      = ∑ p : Fin 512, f p := by
  obtain ⟨a, b, l, rfl⟩ : ∃ (a : Fin 1) (b : Fin 1) (l : Fin 128), j = ix3 a b l := ⟨j 0, j 1, j 2, eq_ix3 j⟩
  obtain rfl : a = 0 := Subsingleton.elim _ _
  obtain rfl : b = 0 := Subsingleton.elim _ _
  rw [pay1_apply]
  exact Finset.sum_congr rfl fun p _ => hrow p

end Cert.Hand.KernelBody

end
-- ==== Proof.KernelTile.lean ====
/-
  From the tiles to the array of partial sums.

  Grid point `t` of the 32 works on rows `512·t … 512·t + 511` of `x`, on the same rows of the label column and on the
  whole centre table, and writes back a block `[1, 1, 128]` holding on every lane the sum of its 512 clipped
  distances. The label column is the label vector viewed as `[16384, 1]`. A label in `0 … 999` is, as a 32-bit word,
  the word of the row of the table it names. The 32 blocks tile the result array, so after the region the array holds
  at `(t, 0, l)` the sum over tile `t` of the specification's row distances.
-/
import proofs.«426857_j52896817218211_3_alg».proof.Proof.Gen.KernelIdeal.Frame
import proofs.«426857_j52896817218211_3_alg».proof.Proof.KernelBody
import Idealize.ShloMosaic.Lib.StableHlo.Run

set_option maxRecDepth 16384

noncomputable section

namespace Cert.Hand.KernelTile

open Idealize.ShloMosaic Idealize.ShloMosaic.ValueIdx Idealize.ShloMosaic.TcCoe Idealize.SL.Sem
open Cert.KernelIdeal Cert.KernelIdeal.Gen Cert.Hand
open Idealize.ShloMosaic.Pipeline (Dat)

variable (m : (ℓ : Loc nD τ sig) → Buf (Elt Ideal) ℓ)

/-- The three argument arrays as launched, at their literal types. -/
abbrev xarr (c : Dev nD) : Vec Ideal S16384x1024 .f32 := m ((c : Thread nD τ).loc main_arg0)
abbrev larr (c : Dev nD) : Vec Ideal S16384 .i32 := m ((c : Thread nD τ).loc main_arg1)
abbrev tarr (c : Dev nD) : Vec Ideal S1000x1024 .f32 := m ((c : Thread nD τ).loc main_arg2)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `p` of tile `t` is row `512·t + p` of the array. -/
def row (t : Fin cfg0.N) (p : Fin 512) : Fin 16384 :=
  ⟨t.val * 512 + p.val, by have h : t.val < 32 := N_0 ▸ t.isLt; have := p.isLt; omega⟩

/-- The printed index maps, decided over the grid: the row windows and the result window move with the point, the
    table's window stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Tile `t`'s block of `x`. -/
theorem xblk_apply (c : Dev nD) (t : Fin cfg0.N) (p : Fin 512) (d : Fin 1024) :
    (iblk m c 0 t : Vec Ideal S512x1024 .f32) (ix2 p d) = xarr m c (ix2 (row t p) d) := by
  obtain ⟨e0, e1, -⟩ := idx_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * d.val = d.val; omega

/-- Every tile's block of the table is the table. -/
theorem tblk_apply (c : Dev nD) (t : Fin cfg0.N) (k : Fin 1000) (d : Fin 1024) :
    (iblk m c 2 t : Vec Ideal S1000x1024 .f32) (ix2 k d) = tarr m c (ix2 k d) := by
  obtain ⟨-, -, -, -, e0, e1, -⟩ := idx_facts t
  show V m c main_arg2 (((cfg0.win 2).blk t).view.emb (ix2 k d)) = _
  rw [V_main_arg2]
  refine congrArg _ (funext fun a => Fin.ext ?_)
  match a with
  | ⟨0, _⟩ => show win0_2.index t (0 : Fin 2) * 1000 + 1 * k.val = k.val; omega
  | ⟨1, _⟩ => show win0_2.index t (1 : Fin 2) * 1024 + 1 * d.val = d.val; omega

/-- The label column the region finds: the label vector viewed as `[16384, 1]`. -/
theorem V_labels (c : Dev nD) :
    (V m c main_v0 : S16384x1.Idx → BitVec 32) = shapeCast S16384x1 (larr m c) Facts₀.shapeCasts_S16384_S16384x1 := by
  show StableHlo.after hostOps0 (fun b => m (c, b)) (Proc.devRef .tc main_v0) = _
  after_results
  rfl

/-- Tile `t`'s block of the label column. -/
theorem lblk_apply (c : Dev nD) (t : Fin cfg0.N) (p : Fin 512) :
    (iblk m c 1 t : Vec Ideal S512x1 .i32) (ix2 p (0 : Fin 1)) = larr m c (ix1 (row t p)) := by
  obtain ⟨-, -, e0, e1, -⟩ := idx_facts t
  show V m c main_v0 (((cfg0.win 1).blk t).view.emb (ix2 p (0 : Fin 1))) = _
  rw [V_labels]
  have e : ((cfg0.win 1).blk t).view.emb (ix2 p (0 : Fin 1)) = ix2 (row t p) (0 : Fin 1) :=
    funext fun a => Fin.ext (by
      match a with
      | ⟨0, _⟩ => show win0_1.index t (0 : Fin 2) * 512 + 1 * p.val = t.val * 512 + p.val; omega
      | ⟨1, _⟩ => show win0_1.index t (1 : Fin 2) * 1 + 1 * 0 = 0; omega)
  rw [e]
  exact RowOps.col_of_vec _ _ _

/-- A word that, read signed, lies in `0 … 999` is the word of that number. -/
theorem word_of_inRange (w : BitVec 32) (h0 : 0 ≤ w.toInt) (h1 : w.toInt < 1000) :
    w = BitVec.ofNat 32 (min w.toInt.toNat 999) := by
  apply BitVec.eq_of_toNat_eq
  rw [BitVec.toNat_ofNat]
  have hw := w.isLt
  have hc := BitVec.toInt_eq_toNat_cond w
  split_ifs at hc <;> omega

/-- The array of partial sums: entry `(t, 0, l)` is the sum over tile `t` of the rows' distances. -/
def tiles (x : (⟨2, ![16384, 1024]⟩ : Shape).Idx → EReal) (lab : (⟨1, ![16384]⟩ : Shape).Idx → BitVec 32)
    (tb : (⟨2, ![1000, 1024]⟩ : Shape).Idx → EReal) : S32x1x128.Idx → EReal := fun i =>
  ∑ p : Fin 512, Spec.rowDist x lab tb ⟨(i 0).val * 512 + p.val, by have h : (i 0).val < 32 := (i 0).isLt; have := p.isLt; omega⟩

/-- Row `p` of tile `t`: the body's clipped distance is the specification's distance of row `512·t + p`. -/
theorem row_dist (c : Dev nD) (hlab : Spec.InRange (larr m c)) (t : Fin cfg0.N) (p : Fin 512) :
    min Spec.capv (max Spec.floorv (k0_pay2 (F := Ideal) (iblk m c 0 t) (iblk m c 2 t) (iblk m c 1 t) (ix2 p (0 : Fin 1))))
      = Spec.rowDist (xarr m c) (larr m c) (tarr m c) (row t p) := by
  have hl : (iblk m c 1 t : Vec Ideal S512x1 .i32) (ix2 p (0 : Fin 1))
      = BitVec.ofNat 32 (Spec.labOf (larr m c) (row t p)).val :=
    (lblk_apply m c t p).trans (word_of_inRange _ (hlab (row t p)).1 (hlab (row t p)).2)
  have hx : ∀ d : Fin 1024, Spec.unit (iblk m c 0 t : Vec Ideal S512x1024 .f32) p d = Spec.unit (xarr m c) (row t p) d :=
    fun d => RowOps.unit_congr (iblk m c 0 t : Vec Ideal S512x1024 .f32) (xarr m c) p (row t p) (fun d => xblk_apply m c t p d) d
  have ht : ∀ d : Fin 1024, Spec.unit (iblk m c 2 t : Vec Ideal S1000x1024 .f32) (Spec.labOf (larr m c) (row t p)) d
      = Spec.unit (tarr m c) (Spec.labOf (larr m c) (row t p)) d :=
    fun d => RowOps.unit_congr (iblk m c 2 t : Vec Ideal S1000x1024 .f32) (tarr m c) _ _ (fun d => tblk_apply m c t _ d) d
  rw [KernelBody.pay2_apply (iblk m c 0 t) (iblk m c 2 t) (iblk m c 1 t) p (Spec.labOf (larr m c) (row t p)) hl]
  unfold Spec.rowDist Spec.clipDist
  simp only [hx, ht]

/-- WHAT POINT `t` WRITES BACK is block `t` of the array of partial sums. -/
theorem flushed3_eq (c : Dev nD) (hlab : Spec.InRange (larr m c)) (t : Fin cfg0.N) :
    (dats m 0 c).flushed 3 t = ((cfg0.win 3).blk t).view.read (Elt Ideal) (tiles (xarr m c) (larr m c) (tarr m c)) := by
  show (cfg0.win 3).cut (grid0.coords t) ((dats m 0 c).after 3 t) = _
  rw [after0_3]
  unfold out0_3
  rw [View.canon_unit_zero hz3]
  simp only [View.ld_unit_zero (S := S512x1024) hz2, View.ld_unit_zero (S := S1000x1024) hz2, View.ld_unit_zero (S := S512x1) hz2]
  obtain ⟨-, -, -, -, -, -, e0, e1, e2⟩ := idx_facts t
  funext j
  show k0_pay1 (F := Ideal) (k0_pay2 (F := Ideal) (iblk m c 0 t) (iblk m c 2 t) (iblk m c 1 t)) (Scalar.ofBits .f32 0x5368D4A5#32) (k0_pay3 (F := Ideal)) j
    = tiles (xarr m c) (larr m c) (tarr m c) (((cfg0.win 3).blk t).view.emb j)
  refine (KernelBody.tile_block (iblk m c 0 t) (iblk m c 2 t) (iblk m c 1 t)
    (fun p => Spec.rowDist (xarr m c) (larr m c) (tarr m c) (row t p)) (fun p => row_dist m c hlab t p) j).trans ?_
  unfold tiles
  refine Finset.sum_congr rfl fun p _ => congrArg _ (Fin.ext ?_)
  show t.val * 512 + p.val = (win0_3.index t (0 : Fin 3) * 1 + 1 * (j 0).val) * 512 + p.val
  have hj : (j 0).val < 1 := (j 0).isLt
  omega

/-- An index of the array is in point `t`'s block iff each coordinate is in the block's range on its axis. -/
theorem mem_blk3 (t : Fin cfg0.N) (i : S32x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v1).slice (win0_3.rect t)).set ↔ _
  rw [View.set_slice_whole, Rect.mem_set_unit]
  exact Iff.rfl

/-- The 32 blocks tile the array: index `(t, 0, l)` is in point `t`'s block. -/
theorem cover3 (i : S32x1x128.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 128 := (i 2).isLt
  have hN : cfg0.N = 32 := N_0
  have hlt : (i 0).val < cfg0.N := by omega
  refine ⟨⟨(i 0).val, hlt⟩, flush0_3 _, ?_⟩
  rw [mem_blk3]
  obtain ⟨-, -, -, -, -, -, e0, e1, e2⟩ := idx_facts ⟨(i 0).val, hlt⟩
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 128 ≤ (i 2).val ∧ (i 2).val < win0_3.index _ (2 : Fin 3) * 128 + 128; omega

/-- THE ARRAY after the region: the partial sums. -/
theorem final3 (c : Dev nD) (hlab : Spec.InRange (larr m c)) :
    (dats m 0 c).arrAt 3 cfg0.N = tiles (xarr m c) (larr m c) (tarr m c) :=
  (dats m 0 c).arrAt_eq_of_cover 3 (tiles (xarr m c) (larr m c) (tarr m c)) (fun t _ => flushed3_eq m c hlab t) cover3

end Cert.Hand.KernelTile

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.KernelRun.lean ====
/-
  The kernel program's result: the lines after the region, and the run.

  After the region the program takes lane 0 of each of the 32 blocks, sums the 32 partial sums from zero and divides
  by the constant 16384. A sum over 32 tiles of sums over 512 rows is the sum over the 16384 rows (addition on the
  extended reals is commutative and associative), so the result is the specification's mean.
-/
import proofs.«426857_j52896817218211_3_alg».proof.Proof.KernelTile
import proofs.«426857_j52896817218211_3_alg».proof.Proof.LibBlockSum

set_option maxRecDepth 16384

noncomputable section

namespace Cert.Hand.KernelRun

open Idealize.ShloMosaic Idealize.ShloMosaic.ValueIdx Idealize.ShloMosaic.TcCoe Idealize.SL.Sem
open Cert.KernelIdeal Cert.KernelIdeal.Gen Cert.Hand Cert.Hand.KernelTile
open Idealize.ShloMosaic.Pipeline (Dat)

variable (m : (ℓ : Loc nD τ sig) → Buf (Elt Ideal) ℓ) (ρ : Dev nD → PrngReg)

/-- The lines after the region, as a function of the array of partial sums. -/
def tail (A : S32x1x128.Idx → EReal) : S_.Idx → EReal :=
  Host.divf (F := Ideal)
    (Host.reduceAdd (F := Ideal) (shapeCast S32 (extractStridedSlice S32x1x1 ![0, 0, 0] A Facts₀.slices_S32x1x128_S32x1x1_0_0_0) Facts₀.shapeCasts_S32x1x1_S32)
      (constant (F := Ideal) S_ .f32 0x00000000#32) Facts₀.reducesTo_S32_S_d0 Facts₀.h_S_)
    (constant (F := Ideal) S_ .f32 0x46800000#32)

/-- The program's result buffer after the run is the tail of the region's array. -/
theorem tail_result (c : Dev nD) :
    Pipeline.afterTail₀ cfgs (dats m) 0 (V0 m) [hostOps1] c main_v5 = tail ((dats m 0 c).arrAt 3 cfg0.N) := by
  unfold Pipeline.afterTail₀
  show StableHlo.after hostOps1 _ (Proc.devRef .tc main_v5) = _
  after_results
  exact congrArg tail (Pipeline.withArrays_arr spec0 launch0.win.arr_inj c _ _ 3)

/-- The host's sum of a vector of 32 from zero: the sum of its 32 entries. -/
theorem total32 (y : S32.Idx → EReal) (i : S_.Idx) :
    Host.reduceAdd (F := Ideal) y (constant (F := Ideal) S_ .f32 0x00000000#32) Facts₀.reducesTo_S32_S_d0 Facts₀.h_S_ i
      = ∑ t : Fin 32, y (ix1 t) := by
  simp only [Host.reduceAdd, Ideal.hostReduceAdd_def]
  refine (Ideal.hostReduceAdd_total Facts₀.reducesTo_S32_S_d0 (fun b => b.elim0) y _ i).trans ?_
  rw [RowOps.sum_ix1]
  show Ideal.ofBits .f32 0x00000000#32 + _ = _
  rw [Ideal.ofBits_zero_f32, zero_add]

/-- The tail at its one index: the sum of lane 0 of the 32 blocks, divided by the count. -/
theorem tail_apply (A : S32x1x128.Idx → EReal) (i : S_.Idx) :
    tail A i = Ideal.div (∑ t : Fin 32, A (ix3 t (0 : Fin 1) (0 : Fin 128))) Spec.countv := by
  unfold tail
  show Ideal.div (Host.reduceAdd (F := Ideal) _ _ Facts₀.reducesTo_S32_S_d0 Facts₀.h_S_ i) (Ideal.ofBits .f32 0x46800000#32) = _
  rw [total32]
  refine congrArg (Ideal.div · Spec.countv) (Finset.sum_congr rfl fun t _ => ?_)
  refine (shapeCast_apply _ Facts₀.shapeCasts_S32x1x1_S32 _ (ix3 t (0 : Fin 1) (0 : Fin 1)) ?_).trans ?_
  · rw [Shape.rowMajor_val_three, Shape.rowMajor_val_one]
    show (t.val * 1 + 0) * 1 + 0 = t.val
    omega
  exact extractStridedSlice_apply _ A _ _ (ix3 t (0 : Fin 1) (0 : Fin 128)) fun a => by
    match a with
    | ⟨0, _⟩ => show t.val = 0 + t.val; omega
    | ⟨1, _⟩ => rfl
    | ⟨2, _⟩ => rfl

/-- Thirty-two tiles of 512 rows are the 16384 rows. -/
theorem mean_of_tiles (x : (⟨2, ![16384, 1024]⟩ : Shape).Idx → EReal) (lab : (⟨1, ![16384]⟩ : Shape).Idx → BitVec 32)
    (tb : (⟨2, ![1000, 1024]⟩ : Shape).Idx → EReal) :
    Ideal.div (∑ t : Fin 32, tiles x lab tb (ix3 t (0 : Fin 1) (0 : Fin 128))) Spec.countv = Spec.mean x lab tb := by
  unfold Spec.mean tiles
  refine congrArg (Ideal.div · Spec.countv) ?_
  exact Cert.Hand.BlockSum.sum_blocks_cast 32 512 16384 rfl (fun r => Spec.rowDist x lab tb r) (fun kb kk => by omega)

/-- THE KERNEL PROGRAM'S RUN at the extended reals, for labels in range: every weakly fair execution terminates with the
    result buffer at the specification's mean of the argument arrays, the arguments unchanged. -/
theorem run (hlab : ∀ c : Dev nD, Spec.InRange (larr m c)) :
    θ_run defs (onTc (τ := τ) (main (F := Ideal))) ⟨m, fun _ => 0, ρ⟩ (fun r => ∀ c : Dev nD,
      r.2.mem ((c.tc : Thread nD τ).loc main_v5) = (fun _ => Spec.mean (xarr m c) (larr m c) (tarr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans
        ((tail_result m c).trans (funext fun i => by
          rw [tail_apply, final3 m c (hlab c)]
          exact mean_of_tiles _ _ _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.Hand.KernelRun

end
-- ==== Proof.lean ====
/-
  A tile kernel for the mean clipped distance of normalised rows to their normalised class centres, against its
  jnp reference, over the extended reals.

  Both programs normalise the rows of `x : [16384, 1024]` and of the centre table `[1000, 1024]` (each entry divided
  by its row's Euclidean norm floored at a small constant), take for each row the centre its label names, form
  `(Σ u² + Σ v²) − 2 · Σ u·v`, clip it between the same two constants, and average over the 16384 rows. The kernel
  picks the centre by a matrix product with the 0/1 matrix `[label = column]`, works on 32 tiles of 512 rows, writes
  each tile's sum of distances, and the host lines after it add the 32 sums and divide by 16384; the reference
  gathers the centre rows, sums all 16384 distances and divides by 16384. For a label in `0 … 999` the 0/1 row has its
  single 1 at the label, so the product's row IS the gathered row (`1 · a = a`, `0 · a = 0`); outside that range the
  0/1 row is zero while the gather wraps and clamps, so the precondition asks every label to be in `0 … 999`. A sum
  of 32 sums of 512 terms is the sum of the 16384 terms: addition of extended reals is commutative and associative,
  and nothing else is used — no finiteness.

  The specification (Proof/Spec.lean) states the result as one function of the three argument arrays; the kernel's
  run (Proof/KernelRun.lean) and the reference's run (Proof/RefMean.lean over the generated run) both end at it; the
  label range is read off the precondition in Proof/PreLabels.lean. The ideal pass rewrote nothing, so the idealized
  kernel is the kernel's own text read at the extended reals.
-/
import proofs.«426857_j52896817218211_3_alg».proof.Defs
import proofs.«426857_j52896817218211_3_alg».proof.Proof.Gen.Kernel
import proofs.«426857_j52896817218211_3_alg».proof.Proof.Gen.Kernel.Skeleton
import proofs.«426857_j52896817218211_3_alg».proof.Proof.Gen.Kernel.Launch
import proofs.«426857_j52896817218211_3_alg».proof.Proof.Gen.Kernel.Points
import proofs.«426857_j52896817218211_3_alg».proof.Proof.Gen.Kernel.Frame
import proofs.«426857_j52896817218211_3_alg».proof.Proof.Gen.KernelIdeal
import proofs.«426857_j52896817218211_3_alg».proof.Proof.Gen.KernelIdeal.Skeleton
import proofs.«426857_j52896817218211_3_alg».proof.Proof.Gen.KernelIdeal.Launch
import proofs.«426857_j52896817218211_3_alg».proof.Proof.Gen.KernelIdeal.Points
import proofs.«426857_j52896817218211_3_alg».proof.Proof.Gen.KernelIdeal.Frame
import proofs.«426857_j52896817218211_3_alg».proof.Proof.Gen.ReferenceIdeal
import proofs.«426857_j52896817218211_3_alg».proof.Proof.Gen.Pre_finite_inputs
import proofs.«426857_j52896817218211_3_alg».proof.Proof.Gen.ReferenceIdeal.Run
import proofs.«426857_j52896817218211_3_alg».proof.Proof.Gen.ReferenceIdeal.Read
import proofs.«426857_j52896817218211_3_alg».proof.Proof.PreLabels
import proofs.«426857_j52896817218211_3_alg».proof.Proof.RefMean
import proofs.«426857_j52896817218211_3_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- The same program read at the extended reals. -/
theorem frame_kernelIdeal : Cert.frame_KernelIdeal := fun m ρ _ => Cert.KernelIdeal.Gen.frame m ρ

/-- The reference runs and leaves its arguments as they were: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both programs end with the
    specification's mean of the argument arrays in their result buffers. -/
theorem algebraic : Cert.algebraic_KernelIdeal_ReferenceIdeal := by
  intro m ρ m' ρ' hpre hagree
  have hlab : ∀ c : Dev Cert.KernelIdeal.nD, Cert.Hand.Spec.InRange (Cert.Hand.KernelTile.larr m c) :=
    fun c => Cert.Hand.PreLabels.inRange_of_pre _ _ _ (hpre c)
  refine ⟨fun c => fun _ => Cert.Hand.Spec.mean (Cert.Hand.KernelTile.xarr m c) (Cert.Hand.KernelTile.larr m c)
    (Cert.Hand.KernelTile.tarr m c), Cert.Hand.KernelRun.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2]
  exact Cert.Hand.RefMean.ref_eq_mean _ _ _ (hlab c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
